-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  main_v73

def fn_part3 {F : FTy → Type} [FloatOps F] (main_arg11 : FVec F S512 .f32) (main_arg12 : FVec F S512x512 .f32) (main_arg13 : FVec F S512x512 .f32) (main_arg14 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_v63 main_v67

def fn_part2 {F : FTy → Type} [FloatOps F] (main_arg7 : FVec F S512x512 .f32) (main_arg8 : FVec F S512 .f32) (main_arg9 : FVec F S512x512 .f32) (main_arg10 : FVec F S512x512 .f32) (main_arg11 : FVec F S512 .f32) (main_arg12 : FVec F S512x512 .f32) (main_arg13 : FVec F S512x512 .f32) (main_arg14 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_v48 main_v49 main_v50

def fn_part1 {F : FTy → Type} [FloatOps F] (main_arg4 : FVec F S512x512 .f32) (main_arg5 : FVec F S512 .f32) (main_arg6 : FVec F S512x512 .f32) (main_arg7 : FVec F S512x512 .f32) (main_arg8 : FVec F S512 .f32) (main_arg9 : FVec F S512x512 .f32) (main_arg10 : FVec F S512x512 .f32) (main_arg11 : FVec F S512 .f32) (main_arg12 : FVec F S512x512 .f32) (main_arg13 : FVec F S512x512 .f32) (main_arg14 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x512 .f32) (main_arg1 : FVec F S16384x512 .f32) (main_arg2 : FVec F S16384x512 .f32) (main_arg3 : FVec F S512x512 .f32) (main_arg4 : FVec F S512x512 .f32) (main_arg5 : FVec F S512 .f32) (main_arg6 : FVec F S512x512 .f32) (main_arg7 : FVec F S512x512 .f32) (main_arg8 : FVec F S512 .f32) (main_arg9 : FVec F S512x512 .f32) (main_arg10 : FVec F S512x512 .f32) (main_arg11 : FVec F S512 .f32) (main_arg12 : FVec F S512x512 .f32) (main_arg13 : FVec F S512x512 .f32) (main_arg14 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x512 : Shape := ⟨2, ![16384, 512]⟩
abbrev S512x512 : Shape := ⟨2, ![512, 512]⟩
abbrev S512 : Shape := ⟨1, ![512]⟩
abbrev S1x512 : Shape := ⟨2, ![1, 512]⟩

abbrev nBuf : Space → Nat
  | .hbm => 17
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512x512, .f32⟩
  | .hbm, ⟨14, _⟩ => ⟨S512, .f32⟩
  | .hbm, ⟨15, _⟩ => ⟨S16384x512, .f32⟩
  | .hbm, ⟨16, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512, .f32⟩
  | .local _ .vmem, ⟨9, _⟩ => ⟨S512x512, .f32⟩
  | .local _ .vmem, ⟨10, _⟩ => ⟨S512x512, .f32⟩
  | .local _ .vmem, ⟨11, _⟩ => ⟨S512, .f32⟩
  | .local _ .vmem, ⟨12, _⟩ => ⟨S512x512, .f32⟩
  | .local _ .vmem, ⟨13, _⟩ => ⟨S512x512, .f32⟩
  | .local _ .vmem, ⟨14, _⟩ => ⟨S512, .f32⟩
  | .local _ .vmem, ⟨15, _⟩ => ⟨S512x512, .f32⟩
  | .local _ .vmem, ⟨16, _⟩ => ⟨S512x512, .f32⟩
  | .local _ .vmem, ⟨17, _⟩ => ⟨S512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .f32 = 32 ∨ (Rect.block (s := S512x512) S512x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .f32 = 32 ∨ (Rect.block (s := S512x512) S512x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .f32 = 32 ∨ (Rect.block (s := S512x512) S512x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .f32 = 32 ∨ (Rect.block (s := S512x512) S512x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S16384x512.size a
  hwx0_15 : ∀ i : grid0.Coords, EltTy.bits .f32 = 32 ∨ (Rect.block (s := S16384x512) S512x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S16384x512.size a
  hwx0_16 : ∀ i : grid0.Coords, EltTy.bits .f32 = 32 ∨ (Rect.block (s := S16384x512) S512x512.size (cc0_transform_16 i) (hinb0_16 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0_0) S512x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_1) S512x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S16384x2048 : Shape := ⟨2, ![16384, 2048]⟩
abbrev S1x2048 : Shape := ⟨2, ![1, 2048]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512x512, .f32⟩
  | .hbm, ⟨14, _⟩ => ⟨S512, .f32⟩
  | .hbm, ⟨15, _⟩ => ⟨S512x2048, .f32⟩
  | .hbm, ⟨16, _⟩ => ⟨S512x2048, .f32⟩
  | .hbm, ⟨17, _⟩ => ⟨S2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S_, .f32⟩
  | .hbm, ⟨51, _⟩ => ⟨S16384x512, .f32⟩
  | .hbm, ⟨52, _⟩ => ⟨S16384x512, .f32⟩
  | .hbm, ⟨53, _⟩ => ⟨S_, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S512x512_S512x512_S512x512_S512x512_S512x2048_d1 : Shape.Concatenates [S512x512, S512x512, S512x512, S512x512] S512x2048 1
  concatenates_S512_S512_S512_S512_S2048_d0 : Shape.Concatenates [S512, S512, S512, S512] S2048 0
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.CellSpec.lean ====
/-
  The single-step LSTM cell as ONE function of its fifteen argument arrays, index by index, on the extended reals.

  For a batch row `r` and a unit `j` each of the four gates has the pre-activation
      z_g[r, j] = (Σₖ x[r, k] · w_g[k, j] + Σₖ h[r, k] · u_g[k, j]) + b_g[j]        (g = i, f, c, o)
  and the cell computes
      c'[r, j] = σ(z_f[r, j]) · c[r, j] + σ(z_i[r, j]) · tanh(z_c[r, j]),
      h'[r, j] = σ(z_o[r, j]) · tanh(c'[r, j]),
  with σ the logistic function `1 / (1 + e^(-z))` and every operation the exact one on the extended reals.

  Two facts about how the two programs spell this are proved here, over the library alone:
  * a matrix (or a vector) built by laying four equal pieces side by side along its last axis, read at column
    `g · 512 + j`, is piece `g` at column `j` — so a product with the concatenated weights, cut back into four
    column bands, is the four separate products;
  * the quotient `1 / (1 + e^(-z))` written with the host's divide, negate and exponential over the bit pattern of
    `1.0` is the logistic function at every extended real.
-/
import Idealize.ShloMosaic.PureOps.Ideal
import Idealize.ShloMosaic.PureOps.Ideal.Laws
import Idealize.ShloMosaic.PureOps.IdealRules
import Idealize.ShloMosaic.Lib.ValueIdx
import Idealize.ShloMosaic.Lib.Pipeline.Value

noncomputable section

namespace Cert.LstmCell

open Idealize.ShloMosaic Idealize.ShloMosaic.ValueIdx

/-- The batch-by-features arrays: the inputs, the hidden state, the cell state and both results. -/
abbrev SRows : Shape := ⟨2, ![16384, 512]⟩
/-- One gate's weight matrix. -/
abbrev SMat : Shape := ⟨2, ![512, 512]⟩
/-- One gate's bias. -/
abbrev SVec : Shape := ⟨1, ![512]⟩
/-- Four weight matrices side by side. -/
abbrev SMat4 : Shape := ⟨2, ![512, 2048]⟩
/-- Four biases end to end. -/
abbrev SVec4 : Shape := ⟨1, ![2048]⟩

/-- One gate's pre-activation at batch row `r` and unit `j`: the input row against the gate's input weights, plus the
    hidden row against its recurrent weights, plus its bias — grouped as both programs group it. -/
def pre (x h : SRows.Idx → EReal) (w u : SMat.Idx → EReal) (b : SVec.Idx → EReal) (r : Fin 16384) (j : Fin 512) : EReal :=
  (∑ k : Fin 512, x (ix2 r k) * w (ix2 k j) + ∑ k : Fin 512, h (ix2 r k) * u (ix2 k j)) + b (ix1 j)

/-- The new cell state: the forget gate times the old cell state plus the input gate times the candidate. -/
def cellNext (x h c : SRows.Idx → EReal) (wi ui : SMat.Idx → EReal) (bi : SVec.Idx → EReal)
    (wf uf : SMat.Idx → EReal) (bf : SVec.Idx → EReal) (wc uc : SMat.Idx → EReal) (bc : SVec.Idx → EReal) :
    SRows.Idx → EReal := fun i =>
  Ideal.logistic (pre x h wf uf bf (i 0) (i 1)) * c i
    + Ideal.logistic (pre x h wi ui bi (i 0) (i 1)) * Ideal.tanh (pre x h wc uc bc (i 0) (i 1))

/-- The new hidden state: the output gate times the hyperbolic tangent of the new cell state. -/
def hiddenNext (x h c : SRows.Idx → EReal) (wi ui : SMat.Idx → EReal) (bi : SVec.Idx → EReal)
    (wf uf : SMat.Idx → EReal) (bf : SVec.Idx → EReal) (wc uc : SMat.Idx → EReal) (bc : SVec.Idx → EReal)
    (wo uo : SMat.Idx → EReal) (bo : SVec.Idx → EReal) : SRows.Idx → EReal := fun i =>
  Ideal.logistic (pre x h wo uo bo (i 0) (i 1)) * Ideal.tanh (cellNext x h c wi ui bi wf uf bf wc uc bc i)

/-! ## Four pieces laid along the last axis -/

/-- The column `g · 512 + j` of a row of four bands. -/
abbrev bandCol (g : Fin 4) (j : Fin 512) : Fin 2048 := ⟨g.val * 512 + j.val, by have := g.isLt; have := j.isLt; omega⟩

/-- Four matrices laid side by side along the columns, read at row `k` and column `g · 512 + j`: matrix `g` at
    `(k, j)`. -/
theorem concat4_cols (y0 y1 y2 y3 : SMat.Idx → EReal)
    (hc : Shape.Concatenates (([⟨SMat, y0⟩, ⟨SMat, y1⟩, ⟨SMat, y2⟩, ⟨SMat, y3⟩] : List ((s : Shape) × (s.Idx → EReal))).map (·.1)) SMat4 1)
    (k : Fin 512) (g : Fin 4) (j : Fin 512) :
    concatenate SMat4 1 [⟨SMat, y0⟩, ⟨SMat, y1⟩, ⟨SMat, y2⟩, ⟨SMat, y3⟩] hc (ix2 k (bandCol g j))
      = (![y0, y1, y2, y3] g) (ix2 k j) := by
  have hj := j.isLt
  match g with
  | ⟨0, _⟩ =>
    exact concatenate_apply_piece (1 : Fin SMat4.rank) _ hc _ 0 (by show (0 : Nat) < 4; omega) SMat y0 rfl rfl 0 rfl (ix2 k j)
      (fun b hb => by match b with | ⟨0, _⟩ => rfl | ⟨1, _⟩ => exact absurd rfl hb) (by show 0 + j.val = 0 * 512 + j.val; omega)
  | ⟨1, _⟩ =>
    exact concatenate_apply_piece (1 : Fin SMat4.rank) _ hc _ 1 (by show (1 : Nat) < 4; omega) SMat y1 rfl rfl 512 rfl (ix2 k j)
      (fun b hb => by match b with | ⟨0, _⟩ => rfl | ⟨1, _⟩ => exact absurd rfl hb) (by show 512 + j.val = 1 * 512 + j.val; omega)
  | ⟨2, _⟩ =>
    exact concatenate_apply_piece (1 : Fin SMat4.rank) _ hc _ 2 (by show (2 : Nat) < 4; omega) SMat y2 rfl rfl 1024 rfl (ix2 k j)
      (fun b hb => by match b with | ⟨0, _⟩ => rfl | ⟨1, _⟩ => exact absurd rfl hb) (by show 1024 + j.val = 2 * 512 + j.val; omega)
  | ⟨3, _⟩ =>
    exact concatenate_apply_piece (1 : Fin SMat4.rank) _ hc _ 3 (by show (3 : Nat) < 4; omega) SMat y3 rfl rfl 1536 rfl (ix2 k j)
      (fun b hb => by match b with | ⟨0, _⟩ => rfl | ⟨1, _⟩ => exact absurd rfl hb) (by show 1536 + j.val = 3 * 512 + j.val; omega)

/-- Four vectors laid end to end, read at `g · 512 + j`: vector `g` at `j`. -/
theorem concat4_vec (y0 y1 y2 y3 : SVec.Idx → EReal)
    (hc : Shape.Concatenates (([⟨SVec, y0⟩, ⟨SVec, y1⟩, ⟨SVec, y2⟩, ⟨SVec, y3⟩] : List ((s : Shape) × (s.Idx → EReal))).map (·.1)) SVec4 0)
    (g : Fin 4) (j : Fin 512) :
    concatenate SVec4 0 [⟨SVec, y0⟩, ⟨SVec, y1⟩, ⟨SVec, y2⟩, ⟨SVec, y3⟩] hc (ix1 (bandCol g j))
      = (![y0, y1, y2, y3] g) (ix1 j) := by
  have hj := j.isLt
  match g with
  | ⟨0, _⟩ =>
    exact concatenate_apply_piece (0 : Fin SVec4.rank) _ hc _ 0 (by show (0 : Nat) < 4; omega) SVec y0 rfl rfl 0 rfl (ix1 j)
      (fun b hb => by match b with | ⟨0, _⟩ => exact absurd rfl hb) (by show 0 + j.val = 0 * 512 + j.val; omega)
  | ⟨1, _⟩ =>
    exact concatenate_apply_piece (0 : Fin SVec4.rank) _ hc _ 1 (by show (1 : Nat) < 4; omega) SVec y1 rfl rfl 512 rfl (ix1 j)
      (fun b hb => by match b with | ⟨0, _⟩ => exact absurd rfl hb) (by show 512 + j.val = 1 * 512 + j.val; omega)
  | ⟨2, _⟩ =>
    exact concatenate_apply_piece (0 : Fin SVec4.rank) _ hc _ 2 (by show (2 : Nat) < 4; omega) SVec y2 rfl rfl 1024 rfl (ix1 j)
      (fun b hb => by match b with | ⟨0, _⟩ => exact absurd rfl hb) (by show 1024 + j.val = 2 * 512 + j.val; omega)
  | ⟨3, _⟩ =>
    exact concatenate_apply_piece (0 : Fin SVec4.rank) _ hc _ 3 (by show (3 : Nat) < 4; omega) SVec y3 rfl rfl 1536 rfl (ix1 j)
      (fun b hb => by match b with | ⟨0, _⟩ => exact absurd rfl hb) (by show 1536 + j.val = 3 * 512 + j.val; omega)

/-! ## The logistic function, spelt by the host -/

/-- The bit pattern of `1.0` denotes the real number one. -/
theorem one_f32 : Ideal.ofBits .f32 0x3F800000#32 = 1 := IdealRules.sign_bit.ideal_onePat .f32

/-- `1 / (1 + e^(-z))`, with the host's quotient, negation and exponential over the pattern of `1.0`, is the logistic
    function at every extended real: it is that function's definition. -/
theorem logistic_spelt (z : EReal) :
    Ideal.div (Ideal.ofBits .f32 0x3F800000#32) (Ideal.ofBits .f32 0x3F800000#32 + Ideal.exp (-z)) = Ideal.logistic z := by
  rw [one_f32]; rfl

end Cert.LstmCell

end
-- ==== Proof.GateBlock.lean ====
/-
  The kernel body's arithmetic on ONE batch tile, read at an index of the tile.

  At a grid point the body holds a 512-row tile `X` of the inputs, the matching tiles `H` and `C` of the hidden and
  cell states, and the whole weight matrices and biases. At row `p` and unit `q` of the tile:
  * each product `X · W` is the plain sum `Σₖ X[p, k] · W[k, q]` (the casts to bf16 in front of the matrix unit are the
    identity on the extended reals, and the product accumulates into zero);
  * a bias, cast to one row and broadcast down the tile, is `b[q]`;
  * so each gate's pre-activation is `(Σₖ X[p,k]·W[k,q] + Σₖ H[p,k]·U[k,q]) + b[q]`, and the two stored values are the
    cell update and the hidden update of `Proof/CellSpec.lean` built from those.
  The lemmas are stated over an arbitrary row `r` of the whole arrays that the tile row `p` is known to be
  (`hX`, `hH`, `hC`): which row that is, is the business of the module that reads the tiles off the arrays.
-/
import proofs.«128497_j21234318311760_1_alg».proof.Proof.Gen.KernelIdeal.Skeleton
import proofs.«128497_j21234318311760_1_alg».proof.Proof.CellSpec
import Idealize.ShloMosaic.Lib.ValueIdx
import Idealize.ShloMosaic.Lib.Pipeline.Value
import Idealize.ShloMosaic.PureOps.Ideal.Laws

noncomputable section

namespace Cert.KernelIdeal.CellBlock

open Cert.KernelIdeal Cert.KernelIdeal.Gen Cert.LstmCell Idealize.ShloMosaic Idealize.ShloMosaic.ValueIdx

/-! ## The tile product at an index -/

theorem lhs_axis0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_axis1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_axis0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_axis1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The matrix unit's product of two f32 tiles, each cast to bf16 on the way in, accumulated into zero. -/
abbrev mxu (A B : Vec Ideal S512x512 .f32) : FVec Ideal S512x512 .f32 :=
  matmul (F := Ideal) dot_S512x512_S512x512_S512x512_1_0_0_1_n_n none (truncf (F := Ideal) .bf16 A bitsLt_bf16_f32)
    (truncf (F := Ideal) .bf16 B bitsLt_bf16_f32) (constant (F := Ideal) S512x512 .f32 0x00000000#32)

/-- A bias laid as one row and broadcast down the 512 rows of the tile. -/
abbrev biasRows (b : Vec Ideal S512 .f32) : FVec Ideal S512x512 .f32 :=
  broadcastTo S512x512 (shapeCast S1x512 b shapeCasts_S512_S1x512) broadcasts_S1x512_S512x512

/-- The product at row `p` and column `q`: the sum over the contracted axis of the left tile's row `p` against the
    right tile's column `q` (the casts are the identity on the extended reals; zero plus the sum is the sum). -/
theorem tile_product (A B : Vec Ideal S512x512 .f32) (p q : Fin 512) :
    mxu A B (ix2 p q) = ∑ k : Fin 512, A (ix2 p k) * B (ix2 k q) := by
  show FloatOps.matmul (F := Ideal) dot_S512x512_S512x512_S512x512_1_0_0_1_n_n none (truncf (F := Ideal) .bf16 A bitsLt_bf16_f32)
    (truncf (F := Ideal) .bf16 B bitsLt_bf16_f32) (constant (F := Ideal) S512x512 .f32 0x00000000#32) (ix2 p q) = _
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]
  rfl

/-- A bias as one row, broadcast down the tile, at row `p` and column `q`: the bias at `q`. -/
theorem bias_down (b : Vec Ideal S512 .f32) (p q : Fin 512) : biasRows b (ix2 p q) = b (ix1 q) := by
  refine (broadcastTo_apply _ _ (ix2 p q) (ix2 (⟨0, Nat.one_pos⟩ : Fin 1) q) (fun a => match a with
    | ⟨0, _⟩ => by show 0 = (if (1 : Nat) = 1 then 0 else p.val); rw [if_pos rfl]
    | ⟨1, _⟩ => by show q.val = (if (512 : Nat) = 1 then 0 else q.val); rw [if_neg (by decide)])).trans ?_
  exact shapeCast_apply _ _ (ix2 (⟨0, Nat.one_pos⟩ : Fin 1) q) (ix1 q)
    (by rw [Shape.rowMajor_val_one, Shape.rowMajor_val_two]; show q.val = 0 * 512 + q.val; omega)

/-! ## A gate's pre-activation on the tile -/

/-- The two tile products added and the bias added to that, at row `p` and column `q` of the tile, is the gate's
    pre-activation at the array row `r` that tile row `p` is. -/
theorem gate_at (X H W U : Vec Ideal S512x512 .f32) (B : Vec Ideal S512 .f32)
    (x h : SRows.Idx → EReal) (r : Fin 16384) (p q : Fin 512)
    (hX : ∀ k : Fin 512, X (ix2 p k) = x (ix2 r k)) (hH : ∀ k : Fin 512, H (ix2 p k) = h (ix2 r k)) :
    addf (F := Ideal) (addf (F := Ideal) (mxu X W) (mxu H U)) (biasRows B) (ix2 p q) = pre x h W U B r q := by
  rw [addf_apply, addf_apply, tile_product, tile_product, bias_down]
  unfold pre
  simp only [hX, hH]

/-! ## The two stored values on the tile -/

/-- The input gate's and the forget gate's pre-activations, as the body names them. -/
theorem input_gate_at (X H W U : Vec Ideal S512x512 .f32) (B : Vec Ideal S512 .f32)
    (x h : SRows.Idx → EReal) (r : Fin 16384) (p q : Fin 512)
    (hX : ∀ k : Fin 512, X (ix2 p k) = x (ix2 r k)) (hH : ∀ k : Fin 512, H (ix2 p k) = h (ix2 r k)) :
    k0_pay5 X H W U B (ix2 p q) = pre x h W U B r q :=
  gate_at X H W U B x h r p q hX hH

theorem forget_gate_at (X H W U : Vec Ideal S512x512 .f32) (B : Vec Ideal S512 .f32)
    (x h : SRows.Idx → EReal) (r : Fin 16384) (p q : Fin 512)
    (hX : ∀ k : Fin 512, X (ix2 p k) = x (ix2 r k)) (hH : ∀ k : Fin 512, H (ix2 p k) = h (ix2 r k)) :
    k0_pay6 X H W U B (ix2 p q) = pre x h W U B r q :=
  gate_at X H W U B x h r p q hX hH

/-- The candidate's pre-activation: its two products are computed ahead and added, with the bias, afterwards. -/
theorem candidate_at (X H W U : Vec Ideal S512x512 .f32) (B : Vec Ideal S512 .f32)
    (x h : SRows.Idx → EReal) (r : Fin 16384) (p q : Fin 512)
    (hX : ∀ k : Fin 512, X (ix2 p k) = x (ix2 r k)) (hH : ∀ k : Fin 512, H (ix2 p k) = h (ix2 r k)) :
    addf (F := Ideal) (addf (F := Ideal) (k0_pay7 X W) (k0_pay8 H U)) (biasRows B) (ix2 p q) = pre x h W U B r q :=
  gate_at X H W U B x h r p q hX hH

/-- THE STORED CELL STATE at row `p`, unit `q` of the tile is the cell update at array row `r`, unit `q`. -/
theorem cell_at (X H C Wi Ui : Vec Ideal S512x512 .f32) (Bi : Vec Ideal S512 .f32) (Wf Uf : Vec Ideal S512x512 .f32)
    (Bf : Vec Ideal S512 .f32) (Wc Uc : Vec Ideal S512x512 .f32) (Bc : Vec Ideal S512 .f32)
    (x h c : SRows.Idx → EReal) (r : Fin 16384) (p q : Fin 512)
    (hX : ∀ k : Fin 512, X (ix2 p k) = x (ix2 r k)) (hH : ∀ k : Fin 512, H (ix2 p k) = h (ix2 r k))
    (hC : C (ix2 p q) = c (ix2 r q)) :
    k0_pay1 C (k0_pay5 X H Wi Ui Bi) (k0_pay6 X H Wf Uf Bf) (k0_pay7 X Wc) (k0_pay8 H Uc) Bc (ix2 p q)
      = cellNext x h c Wi Ui Bi Wf Uf Bf Wc Uc Bc (ix2 r q) := by
  have e : k0_pay1 C (k0_pay5 X H Wi Ui Bi) (k0_pay6 X H Wf Uf Bf) (k0_pay7 X Wc) (k0_pay8 H Uc) Bc (ix2 p q)
      = Ideal.logistic (k0_pay6 X H Wf Uf Bf (ix2 p q)) * C (ix2 p q)
        + Ideal.logistic (k0_pay5 X H Wi Ui Bi (ix2 p q))
          * Ideal.tanh (addf (F := Ideal) (addf (F := Ideal) (k0_pay7 X Wc) (k0_pay8 H Uc)) (biasRows Bc) (ix2 p q)) := rfl
  rw [e, forget_gate_at X H Wf Uf Bf x h r p q hX hH, input_gate_at X H Wi Ui Bi x h r p q hX hH,
    candidate_at X H Wc Uc Bc x h r p q hX hH, hC]
  rfl

/-- THE STORED HIDDEN STATE at row `p`, unit `q` of the tile is the hidden update at array row `r`, unit `q`. -/
theorem hidden_at (X H C Wi Ui : Vec Ideal S512x512 .f32) (Bi : Vec Ideal S512 .f32) (Wf Uf : Vec Ideal S512x512 .f32)
    (Bf : Vec Ideal S512 .f32) (Wc Uc : Vec Ideal S512x512 .f32) (Bc : Vec Ideal S512 .f32)
    (Wo Uo : Vec Ideal S512x512 .f32) (Bo : Vec Ideal S512 .f32)
    (x h c : SRows.Idx → EReal) (r : Fin 16384) (p q : Fin 512)
    (hX : ∀ k : Fin 512, X (ix2 p k) = x (ix2 r k)) (hH : ∀ k : Fin 512, H (ix2 p k) = h (ix2 r k))
    (hC : C (ix2 p q) = c (ix2 r q)) :
    k0_pay2 (k0_pay3 X) (k0_pay4 H) C (k0_pay5 X H Wi Ui Bi) (k0_pay6 X H Wf Uf Bf) (k0_pay7 X Wc) (k0_pay8 H Uc) Bc Wo Uo Bo (ix2 p q)
      = hiddenNext x h c Wi Ui Bi Wf Uf Bf Wc Uc Bc Wo Uo Bo (ix2 r q) := by
  have e : k0_pay2 (k0_pay3 X) (k0_pay4 H) C (k0_pay5 X H Wi Ui Bi) (k0_pay6 X H Wf Uf Bf) (k0_pay7 X Wc) (k0_pay8 H Uc) Bc Wo Uo Bo (ix2 p q)
      = Ideal.logistic (addf (F := Ideal) (addf (F := Ideal) (mxu X Wo) (mxu H Uo)) (biasRows Bo) (ix2 p q))
        * Ideal.tanh (k0_pay1 C (k0_pay5 X H Wi Ui Bi) (k0_pay6 X H Wf Uf Bf) (k0_pay7 X Wc) (k0_pay8 H Uc) Bc (ix2 p q)) := rfl
  rw [e, gate_at X H Wo Uo Bo x h r p q hX hH, cell_at X H C Wi Ui Bi Wf Uf Bf Wc Uc Bc x h c r p q hX hH hC]
  rfl

end Cert.KernelIdeal.CellBlock

end
-- ==== Proof.KernelArray.lean ====
/-
  From tiles to arrays: what the kernel's run leaves in its two result arrays.

  The grid has 32 points; point `t` works on batch rows `512 t … 512 t + 511`. Its tiles of the inputs, the hidden state
  and the cell state are those rows of the three arrays (all 512 columns); the weight matrices and the biases are staged
  whole at every point. So by `Proof/GateBlock.lean` the two values the point stores are the hidden update and the cell
  update at those rows, and it writes them back to the same rows of the two result arrays. The 32 row bands tile
  the arrays, hence after the run each result array is `hiddenNext` (`cellNext`) of the argument arrays everywhere.
-/
import proofs.«128497_j21234318311760_1_alg».proof.Proof.Gen.KernelIdeal.Value
import proofs.«128497_j21234318311760_1_alg».proof.Proof.GateBlock

set_option maxRecDepth 16384

noncomputable section

namespace Cert.KernelIdeal.CellArray

open Cert.KernelIdeal Cert.KernelIdeal.Gen Cert.KernelIdeal.CellBlock Cert.LstmCell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The argument arrays and their tiles, at their literal types -/

abbrev arr0 (c : Dev nD) : Vec Ideal S16384x512 .f32 := V m c main_arg0
abbrev arr1 (c : Dev nD) : Vec Ideal S16384x512 .f32 := V m c main_arg1
abbrev arr2 (c : Dev nD) : Vec Ideal S16384x512 .f32 := V m c main_arg2
abbrev arr3 (c : Dev nD) : Vec Ideal S512x512 .f32 := V m c main_arg3
abbrev arr4 (c : Dev nD) : Vec Ideal S512x512 .f32 := V m c main_arg4
abbrev arr6 (c : Dev nD) : Vec Ideal S512x512 .f32 := V m c main_arg6
abbrev arr7 (c : Dev nD) : Vec Ideal S512x512 .f32 := V m c main_arg7
abbrev arr9 (c : Dev nD) : Vec Ideal S512x512 .f32 := V m c main_arg9
abbrev arr10 (c : Dev nD) : Vec Ideal S512x512 .f32 := V m c main_arg10
abbrev arr12 (c : Dev nD) : Vec Ideal S512x512 .f32 := V m c main_arg12
abbrev arr13 (c : Dev nD) : Vec Ideal S512x512 .f32 := V m c main_arg13
abbrev arr5 (c : Dev nD) : Vec Ideal S512 .f32 := V m c main_arg5
abbrev arr8 (c : Dev nD) : Vec Ideal S512 .f32 := V m c main_arg8
abbrev arr11 (c : Dev nD) : Vec Ideal S512 .f32 := V m c main_arg11
abbrev arr14 (c : Dev nD) : Vec Ideal S512 .f32 := V m c main_arg14
abbrev tile0 (c : Dev nD) (t : Fin cfg0.N) : Vec Ideal S512x512 .f32 := iblk m c 0 t
abbrev tile1 (c : Dev nD) (t : Fin cfg0.N) : Vec Ideal S512x512 .f32 := iblk m c 1 t
abbrev tile2 (c : Dev nD) (t : Fin cfg0.N) : Vec Ideal S512x512 .f32 := iblk m c 2 t
abbrev tile3 (c : Dev nD) (t : Fin cfg0.N) : Vec Ideal S512x512 .f32 := iblk m c 3 t
abbrev tile4 (c : Dev nD) (t : Fin cfg0.N) : Vec Ideal S512x512 .f32 := iblk m c 4 t
abbrev tile6 (c : Dev nD) (t : Fin cfg0.N) : Vec Ideal S512x512 .f32 := iblk m c 6 t
abbrev tile7 (c : Dev nD) (t : Fin cfg0.N) : Vec Ideal S512x512 .f32 := iblk m c 7 t
abbrev tile9 (c : Dev nD) (t : Fin cfg0.N) : Vec Ideal S512x512 .f32 := iblk m c 9 t
abbrev tile10 (c : Dev nD) (t : Fin cfg0.N) : Vec Ideal S512x512 .f32 := iblk m c 10 t
abbrev tile12 (c : Dev nD) (t : Fin cfg0.N) : Vec Ideal S512x512 .f32 := iblk m c 12 t
abbrev tile13 (c : Dev nD) (t : Fin cfg0.N) : Vec Ideal S512x512 .f32 := iblk m c 13 t
abbrev tile5 (c : Dev nD) (t : Fin cfg0.N) : Vec Ideal S512 .f32 := iblk m c 5 t
abbrev tile8 (c : Dev nD) (t : Fin cfg0.N) : Vec Ideal S512 .f32 := iblk m c 8 t
abbrev tile11 (c : Dev nD) (t : Fin cfg0.N) : Vec Ideal S512 .f32 := iblk m c 11 t
abbrev tile14 (c : Dev nD) (t : Fin cfg0.N) : Vec Ideal S512 .f32 := iblk m c 14 t

/-! ## Where each window's block sits, decided over the 32 grid points -/

/-- The row windows (inputs, hidden state, cell state, and the two results) all sit at the same row band, at most
    band 31, and at column band 0. -/
theorem idx_rows : ∀ t : Fin cfg0.N, win0_15.index t (0 : Fin 2) ≤ 31 ∧ win0_15.index t (1 : Fin 2) = 0
    ∧ win0_16.index t (0 : Fin 2) = win0_15.index t (0 : Fin 2) ∧ win0_16.index t (1 : Fin 2) = 0
    ∧ win0_0.index t (0 : Fin 2) = win0_15.index t (0 : Fin 2) ∧ win0_0.index t (1 : Fin 2) = 0
    ∧ win0_1.index t (0 : Fin 2) = win0_15.index t (0 : Fin 2) ∧ win0_1.index t (1 : Fin 2) = 0
    ∧ win0_2.index t (0 : Fin 2) = win0_15.index t (0 : Fin 2) ∧ win0_2.index t (1 : Fin 2) = 0 :=
  (by decide +kernel : ∀ t : Fin grid0.N, _)

/-- Every row band is some point's. -/
theorem idx_onto : ∀ q0 : Fin 32, ∃ t : Fin cfg0.N, win0_15.index t (0 : Fin 2) = q0.val :=
  (by decide +kernel : ∀ q0 : Fin 32, ∃ t : Fin grid0.N, win0_15.index t (0 : Fin 2) = q0.val)

theorem idx_mat3 : ∀ t : Fin cfg0.N, win0_3.index t (0 : Fin 2) = 0 ∧ win0_3.index t (1 : Fin 2) = 0 :=
  (by decide +kernel : ∀ t : Fin grid0.N, _)
theorem idx_mat4 : ∀ t : Fin cfg0.N, win0_4.index t (0 : Fin 2) = 0 ∧ win0_4.index t (1 : Fin 2) = 0 :=
  (by decide +kernel : ∀ t : Fin grid0.N, _)
theorem idx_mat6 : ∀ t : Fin cfg0.N, win0_6.index t (0 : Fin 2) = 0 ∧ win0_6.index t (1 : Fin 2) = 0 :=
  (by decide +kernel : ∀ t : Fin grid0.N, _)
theorem idx_mat7 : ∀ t : Fin cfg0.N, win0_7.index t (0 : Fin 2) = 0 ∧ win0_7.index t (1 : Fin 2) = 0 :=
  (by decide +kernel : ∀ t : Fin grid0.N, _)
theorem idx_mat9 : ∀ t : Fin cfg0.N, win0_9.index t (0 : Fin 2) = 0 ∧ win0_9.index t (1 : Fin 2) = 0 :=
  (by decide +kernel : ∀ t : Fin grid0.N, _)
theorem idx_mat10 : ∀ t : Fin cfg0.N, win0_10.index t (0 : Fin 2) = 0 ∧ win0_10.index t (1 : Fin 2) = 0 :=
  (by decide +kernel : ∀ t : Fin grid0.N, _)
theorem idx_mat12 : ∀ t : Fin cfg0.N, win0_12.index t (0 : Fin 2) = 0 ∧ win0_12.index t (1 : Fin 2) = 0 :=
  (by decide +kernel : ∀ t : Fin grid0.N, _)
theorem idx_mat13 : ∀ t : Fin cfg0.N, win0_13.index t (0 : Fin 2) = 0 ∧ win0_13.index t (1 : Fin 2) = 0 :=
  (by decide +kernel : ∀ t : Fin grid0.N, _)
theorem idx_vec5 : ∀ t : Fin cfg0.N, win0_5.index t (0 : Fin 1) = 0 :=
  (by decide +kernel : ∀ t : Fin grid0.N, _)
theorem idx_vec8 : ∀ t : Fin cfg0.N, win0_8.index t (0 : Fin 1) = 0 :=
  (by decide +kernel : ∀ t : Fin grid0.N, _)
theorem idx_vec11 : ∀ t : Fin cfg0.N, win0_11.index t (0 : Fin 1) = 0 :=
  (by decide +kernel : ∀ t : Fin grid0.N, _)
theorem idx_vec14 : ∀ t : Fin cfg0.N, win0_14.index t (0 : Fin 1) = 0 :=
  (by decide +kernel : ∀ t : Fin grid0.N, _)

/-- The array row that row `p` of point `t`'s tiles is. -/
abbrev rowOf (t : Fin cfg0.N) (p : Fin 512) : Fin 16384 :=
  ⟨win0_15.index t (0 : Fin 2) * 512 + p.val, by have h := (idx_rows t).1; have hp := p.isLt; omega⟩

/-! ## The tiles, read off the arrays -/

/-- Row `p` of point `t`'s tile of argument 0 is row `512 t + p` of the array. -/
theorem tile0_row (c : Dev nD) (t : Fin cfg0.N) (p k : Fin 512) : tile0 m c t (ix2 p k) = arr0 m c (ix2 (rowOf t p) k) := by
  obtain ⟨_, _, _, _, e0, e1, _⟩ := idx_rows t
  show V m c main_arg0 (((cfg0.win 0).blk t).view.emb (ix2 p k)) = V m c main_arg0 (ix2 (rowOf t p) k)
  refine congrArg _ (funext fun a => Fin.ext ?_)
  match a with
  | ⟨0, _⟩ => show win0_0.index t (0 : Fin 2) * 512 + 1 * p.val = win0_15.index t (0 : Fin 2) * 512 + p.val; omega
  | ⟨1, _⟩ => show win0_0.index t (1 : Fin 2) * 512 + 1 * k.val = k.val; omega

/-- Row `p` of point `t`'s tile of argument 1 is row `512 t + p` of the array. -/
theorem tile1_row (c : Dev nD) (t : Fin cfg0.N) (p k : Fin 512) : tile1 m c t (ix2 p k) = arr1 m c (ix2 (rowOf t p) k) := by
  obtain ⟨_, _, _, _, _, _, e0, e1, _⟩ := idx_rows t
  show V m c main_arg1 (((cfg0.win 1).blk t).view.emb (ix2 p k)) = V m c main_arg1 (ix2 (rowOf t p) k)
  refine congrArg _ (funext fun a => Fin.ext ?_)
  match a with
  | ⟨0, _⟩ => show win0_1.index t (0 : Fin 2) * 512 + 1 * p.val = win0_15.index t (0 : Fin 2) * 512 + p.val; omega
  | ⟨1, _⟩ => show win0_1.index t (1 : Fin 2) * 512 + 1 * k.val = k.val; omega

/-- Row `p` of point `t`'s tile of argument 2 is row `512 t + p` of the array. -/
theorem tile2_row (c : Dev nD) (t : Fin cfg0.N) (p k : Fin 512) : tile2 m c t (ix2 p k) = arr2 m c (ix2 (rowOf t p) k) := by
  obtain ⟨_, _, _, _, _, _, _, _, e0, e1⟩ := idx_rows t
  show V m c main_arg2 (((cfg0.win 2).blk t).view.emb (ix2 p k)) = V m c main_arg2 (ix2 (rowOf t p) k)
  refine congrArg _ (funext fun a => Fin.ext ?_)
  match a with
  | ⟨0, _⟩ => show win0_2.index t (0 : Fin 2) * 512 + 1 * p.val = win0_15.index t (0 : Fin 2) * 512 + p.val; omega
  | ⟨1, _⟩ => show win0_2.index t (1 : Fin 2) * 512 + 1 * k.val = k.val; omega

/-- Argument 3's tile is the whole matrix, at every point. -/
theorem tile3_eq (c : Dev nD) (t : Fin cfg0.N) : tile3 m c t = arr3 m c := by
  obtain ⟨e0, e1⟩ := idx_mat3 t
  funext y
  show V m c main_arg3 (((cfg0.win 3).blk t).view.emb y) = V m c main_arg3 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

/-- Argument 4's tile is the whole matrix, at every point. -/
theorem tile4_eq (c : Dev nD) (t : Fin cfg0.N) : tile4 m c t = arr4 m c := by
  obtain ⟨e0, e1⟩ := idx_mat4 t
  funext y
  show V m c main_arg4 (((cfg0.win 4).blk t).view.emb y) = V m c main_arg4 y
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

/-- Argument 6's tile is the whole matrix, at every point. -/
theorem tile6_eq (c : Dev nD) (t : Fin cfg0.N) : tile6 m c t = arr6 m c := by
  obtain ⟨e0, e1⟩ := idx_mat6 t
  funext y
  show V m c main_arg6 (((cfg0.win 6).blk t).view.emb y) = V m c main_arg6 y
  refine congrArg _ (funext fun a => Fin.ext ?_)
  match a with
  | ⟨0, _⟩ => show win0_6.index t (0 : Fin 2) * 512 + 1 * (y 0).val = (y 0).val; omega
  | ⟨1, _⟩ => show win0_6.index t (1 : Fin 2) * 512 + 1 * (y 1).val = (y 1).val; omega

/-- Argument 7's tile is the whole matrix, at every point. -/
theorem tile7_eq (c : Dev nD) (t : Fin cfg0.N) : tile7 m c t = arr7 m c := by
  obtain ⟨e0, e1⟩ := idx_mat7 t
  funext y
  show V m c main_arg7 (((cfg0.win 7).blk t).view.emb y) = V m c main_arg7 y
  refine congrArg _ (funext fun a => Fin.ext ?_)
  match a with
  | ⟨0, _⟩ => show win0_7.index t (0 : Fin 2) * 512 + 1 * (y 0).val = (y 0).val; omega
  | ⟨1, _⟩ => show win0_7.index t (1 : Fin 2) * 512 + 1 * (y 1).val = (y 1).val; omega

/-- Argument 9's tile is the whole matrix, at every point. -/
theorem tile9_eq (c : Dev nD) (t : Fin cfg0.N) : tile9 m c t = arr9 m c := by
  obtain ⟨e0, e1⟩ := idx_mat9 t
  funext y
  show V m c main_arg9 (((cfg0.win 9).blk t).view.emb y) = V m c main_arg9 y
  refine congrArg _ (funext fun a => Fin.ext ?_)
  match a with
  | ⟨0, _⟩ => show win0_9.index t (0 : Fin 2) * 512 + 1 * (y 0).val = (y 0).val; omega
  | ⟨1, _⟩ => show win0_9.index t (1 : Fin 2) * 512 + 1 * (y 1).val = (y 1).val; omega

/-- Argument 10's tile is the whole matrix, at every point. -/
theorem tile10_eq (c : Dev nD) (t : Fin cfg0.N) : tile10 m c t = arr10 m c := by
  obtain ⟨e0, e1⟩ := idx_mat10 t
  funext y
  show V m c main_arg10 (((cfg0.win 10).blk t).view.emb y) = V m c main_arg10 y
  refine congrArg _ (funext fun a => Fin.ext ?_)
  match a with
  | ⟨0, _⟩ => show win0_10.index t (0 : Fin 2) * 512 + 1 * (y 0).val = (y 0).val; omega
  | ⟨1, _⟩ => show win0_10.index t (1 : Fin 2) * 512 + 1 * (y 1).val = (y 1).val; omega

/-- Argument 12's tile is the whole matrix, at every point. -/
theorem tile12_eq (c : Dev nD) (t : Fin cfg0.N) : tile12 m c t = arr12 m c := by
  obtain ⟨e0, e1⟩ := idx_mat12 t
  funext y
  show V m c main_arg12 (((cfg0.win 12).blk t).view.emb y) = V m c main_arg12 y
  refine congrArg _ (funext fun a => Fin.ext ?_)
  match a with
  | ⟨0, _⟩ => show win0_12.index t (0 : Fin 2) * 512 + 1 * (y 0).val = (y 0).val; omega
  | ⟨1, _⟩ => show win0_12.index t (1 : Fin 2) * 512 + 1 * (y 1).val = (y 1).val; omega

/-- Argument 13's tile is the whole matrix, at every point. -/
theorem tile13_eq (c : Dev nD) (t : Fin cfg0.N) : tile13 m c t = arr13 m c := by
  obtain ⟨e0, e1⟩ := idx_mat13 t
  funext y
  show V m c main_arg13 (((cfg0.win 13).blk t).view.emb y) = V m c main_arg13 y
  refine congrArg _ (funext fun a => Fin.ext ?_)
  match a with
  | ⟨0, _⟩ => show win0_13.index t (0 : Fin 2) * 512 + 1 * (y 0).val = (y 0).val; omega
  | ⟨1, _⟩ => show win0_13.index t (1 : Fin 2) * 512 + 1 * (y 1).val = (y 1).val; omega

/-- Argument 5's tile is the whole bias, at every point. -/
theorem tile5_eq (c : Dev nD) (t : Fin cfg0.N) : tile5 m c t = arr5 m c := by
  have e0 := idx_vec5 t
  funext y
  show V m c main_arg5 (((cfg0.win 5).blk t).view.emb y) = V m c main_arg5 y
  refine congrArg _ (funext fun a => Fin.ext ?_)
  match a with
  | ⟨0, _⟩ => show win0_5.index t (0 : Fin 1) * 512 + 1 * (y 0).val = (y 0).val; omega

/-- Argument 8's tile is the whole bias, at every point. -/
theorem tile8_eq (c : Dev nD) (t : Fin cfg0.N) : tile8 m c t = arr8 m c := by
  have e0 := idx_vec8 t
  funext y
  show V m c main_arg8 (((cfg0.win 8).blk t).view.emb y) = V m c main_arg8 y
  refine congrArg _ (funext fun a => Fin.ext ?_)
  match a with
  | ⟨0, _⟩ => show win0_8.index t (0 : Fin 1) * 512 + 1 * (y 0).val = (y 0).val; omega

/-- Argument 11's tile is the whole bias, at every point. -/
theorem tile11_eq (c : Dev nD) (t : Fin cfg0.N) : tile11 m c t = arr11 m c := by
  have e0 := idx_vec11 t
  funext y
  show V m c main_arg11 (((cfg0.win 11).blk t).view.emb y) = V m c main_arg11 y
  refine congrArg _ (funext fun a => Fin.ext ?_)
  match a with
  | ⟨0, _⟩ => show win0_11.index t (0 : Fin 1) * 512 + 1 * (y 0).val = (y 0).val; omega

/-- Argument 14's tile is the whole bias, at every point. -/
theorem tile14_eq (c : Dev nD) (t : Fin cfg0.N) : tile14 m c t = arr14 m c := by
  have e0 := idx_vec14 t
  funext y
  show V m c main_arg14 (((cfg0.win 14).blk t).view.emb y) = V m c main_arg14 y
  refine congrArg _ (funext fun a => Fin.ext ?_)
  match a with
  | ⟨0, _⟩ => show win0_14.index t (0 : Fin 1) * 512 + 1 * (y 0).val = (y 0).val; omega

/-! ## Result window 15: the hidden state -/

/-- WHAT POINT `t` WRITES BACK to the hidden-state array is its row band of `hiddenNext` of the argument arrays. -/
theorem flushed15_eq (c : Dev nD) (t : Fin cfg0.N) :
    (dats m 0 c).flushed 15 t = ((cfg0.win 15).blk t).view.read (Elt Ideal) (hiddenNext (arr0 m c) (arr1 m c) (arr2 m c) (arr3 m c) (arr4 m c) (arr5 m c) (arr6 m c) (arr7 m c) (arr8 m c) (arr9 m c) (arr10 m c) (arr11 m c) (arr12 m c) (arr13 m c) (arr14 m c)) := by
  rw [Value.flushed15]
  unfold out0_15
  rw [View.canon_unit_zero hz2]
  simp only [View.ld_unit_zero (S := S512x512) hz2, View.ld_unit_zero (S := S512) hz1]
  refine funext fun (y : S512x512.Idx) => ?_
  obtain ⟨p, q, rfl⟩ : ∃ (p q : Fin 512), y = ix2 p q := ⟨y 0, y 1, eq_ix2 y⟩
  obtain ⟨_, e1, e2, e3, _⟩ := idx_rows t
  have hemb : ((cfg0.win 15).blk t).view.emb (ix2 p q) = ix2 (rowOf t p) q := by
    funext a; apply Fin.ext
    match a with
    | ⟨0, _⟩ => show win0_15.index t (0 : Fin 2) * 512 + 1 * p.val = win0_15.index t (0 : Fin 2) * 512 + p.val; omega
    | ⟨1, _⟩ => show win0_15.index t (1 : Fin 2) * 512 + 1 * q.val = q.val; omega
  show k0_pay2 (k0_pay3 (tile0 m c t)) (k0_pay4 (tile1 m c t)) (tile2 m c t) (k0_pay5 (tile0 m c t) (tile1 m c t) (tile3 m c t) (tile4 m c t) (tile5 m c t)) (k0_pay6 (tile0 m c t) (tile1 m c t) (tile6 m c t) (tile7 m c t) (tile8 m c t)) (k0_pay7 (tile0 m c t) (tile9 m c t)) (k0_pay8 (tile1 m c t) (tile10 m c t)) (tile11 m c t) (tile12 m c t) (tile13 m c t) (tile14 m c t) (ix2 p q)
    = (hiddenNext (arr0 m c) (arr1 m c) (arr2 m c) (arr3 m c) (arr4 m c) (arr5 m c) (arr6 m c) (arr7 m c) (arr8 m c) (arr9 m c) (arr10 m c) (arr11 m c) (arr12 m c) (arr13 m c) (arr14 m c)) (((cfg0.win 15).blk t).view.emb (ix2 p q))
  rw [hemb, tile3_eq m c t, tile4_eq m c t, tile5_eq m c t, tile6_eq m c t, tile7_eq m c t, tile8_eq m c t, tile9_eq m c t, tile10_eq m c t, tile11_eq m c t, tile12_eq m c t, tile13_eq m c t, tile14_eq m c t]
  exact hidden_at (tile0 m c t) (tile1 m c t) (tile2 m c t) (arr3 m c) (arr4 m c) (arr5 m c) (arr6 m c) (arr7 m c) (arr8 m c) (arr9 m c) (arr10 m c) (arr11 m c) (arr12 m c) (arr13 m c) (arr14 m c) (arr0 m c) (arr1 m c) (arr2 m c) (rowOf t p) p q
    (fun k => tile0_row m c t p k) (fun k => tile1_row m c t p k) (tile2_row m c t p q)

/-- An index of the array is in point `t`'s block iff each coordinate is in the block's range on its axis. -/
theorem mem_blk15 (t : Fin cfg0.N) (i : S16384x512.Idx) :
    i ∈ ((cfg0.win 15).blk t).view.set ↔ ∀ a : Fin 2, win0_15.index t a * S512x512.size a ≤ (i a).val ∧ (i a).val < win0_15.index t a * S512x512.size a + S512x512.size a := by
  show i ∈ ((View.whole main_v0_0).slice (win0_15.rect t)).set ↔ _
  rw [View.set_slice_whole, Rect.mem_set_unit]
  exact Iff.rfl

/-- Every index of the hidden-state array lies in the block of the point whose band holds its row. -/
theorem cover15 (i : S16384x512.Idx) :
    ∃ t : Fin cfg0.N, (cfg0.win 15).flush t = true ∧ i ∈ ((cfg0.win 15).blk t).view.set := by
  have hi0 : (i 0).val < 16384 := (i 0).isLt
  have hi1 : (i 1).val < 512 := (i 1).isLt
  obtain ⟨t, ht⟩ := idx_onto ⟨(i 0).val / 512, by omega⟩
  have ht' : win0_15.index t (0 : Fin 2) = (i 0).val / 512 := ht
  obtain ⟨_, e1, e2, e3, _⟩ := idx_rows t
  refine ⟨t, flush0_15 t, ?_⟩
  rw [mem_blk15]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 512 ≤ (i 1).val ∧ (i 1).val < win0_15.index t (1 : Fin 2) * 512 + 512; omega

/-- THE HIDDEN-STATE ARRAY after the run is `hiddenNext` of the argument arrays. -/
theorem final15 (c : Dev nD) : (dats m 0 c).arrAt 15 cfg0.N = (hiddenNext (arr0 m c) (arr1 m c) (arr2 m c) (arr3 m c) (arr4 m c) (arr5 m c) (arr6 m c) (arr7 m c) (arr8 m c) (arr9 m c) (arr10 m c) (arr11 m c) (arr12 m c) (arr13 m c) (arr14 m c)) :=
  (dats m 0 c).arrAt_eq_of_cover 15 _ (fun t _ => flushed15_eq m c t) cover15

/-! ## Result window 16: the cell state -/

/-- WHAT POINT `t` WRITES BACK to the cell-state array is its row band of `cellNext` of the argument arrays. -/
theorem flushed16_eq (c : Dev nD) (t : Fin cfg0.N) :
    (dats m 0 c).flushed 16 t = ((cfg0.win 16).blk t).view.read (Elt Ideal) (cellNext (arr0 m c) (arr1 m c) (arr2 m c) (arr3 m c) (arr4 m c) (arr5 m c) (arr6 m c) (arr7 m c) (arr8 m c) (arr9 m c) (arr10 m c) (arr11 m c)) := by
  rw [Value.flushed16]
  unfold out0_16
  rw [View.canon_unit_zero hz2]
  simp only [View.ld_unit_zero (S := S512x512) hz2, View.ld_unit_zero (S := S512) hz1]
  refine funext fun (y : S512x512.Idx) => ?_
  obtain ⟨p, q, rfl⟩ : ∃ (p q : Fin 512), y = ix2 p q := ⟨y 0, y 1, eq_ix2 y⟩
  obtain ⟨_, e1, e2, e3, _⟩ := idx_rows t
  have hemb : ((cfg0.win 16).blk t).view.emb (ix2 p q) = ix2 (rowOf t p) q := by
    funext a; apply Fin.ext
    match a with
    | ⟨0, _⟩ => show win0_16.index t (0 : Fin 2) * 512 + 1 * p.val = win0_15.index t (0 : Fin 2) * 512 + p.val; omega
    | ⟨1, _⟩ => show win0_16.index t (1 : Fin 2) * 512 + 1 * q.val = q.val; omega
  show k0_pay1 (tile2 m c t) (k0_pay5 (tile0 m c t) (tile1 m c t) (tile3 m c t) (tile4 m c t) (tile5 m c t)) (k0_pay6 (tile0 m c t) (tile1 m c t) (tile6 m c t) (tile7 m c t) (tile8 m c t)) (k0_pay7 (tile0 m c t) (tile9 m c t)) (k0_pay8 (tile1 m c t) (tile10 m c t)) (tile11 m c t) (ix2 p q)
    = (cellNext (arr0 m c) (arr1 m c) (arr2 m c) (arr3 m c) (arr4 m c) (arr5 m c) (arr6 m c) (arr7 m c) (arr8 m c) (arr9 m c) (arr10 m c) (arr11 m c)) (((cfg0.win 16).blk t).view.emb (ix2 p q))
  rw [hemb, tile3_eq m c t, tile4_eq m c t, tile5_eq m c t, tile6_eq m c t, tile7_eq m c t, tile8_eq m c t, tile9_eq m c t, tile10_eq m c t, tile11_eq m c t]
  exact cell_at (tile0 m c t) (tile1 m c t) (tile2 m c t) (arr3 m c) (arr4 m c) (arr5 m c) (arr6 m c) (arr7 m c) (arr8 m c) (arr9 m c) (arr10 m c) (arr11 m c) (arr0 m c) (arr1 m c) (arr2 m c) (rowOf t p) p q
    (fun k => tile0_row m c t p k) (fun k => tile1_row m c t p k) (tile2_row m c t p q)

/-- An index of the array is in point `t`'s block iff each coordinate is in the block's range on its axis. -/
theorem mem_blk16 (t : Fin cfg0.N) (i : S16384x512.Idx) :
    i ∈ ((cfg0.win 16).blk t).view.set ↔ ∀ a : Fin 2, win0_16.index t a * S512x512.size a ≤ (i a).val ∧ (i a).val < win0_16.index t a * S512x512.size a + S512x512.size a := by
  show i ∈ ((View.whole main_v0_1).slice (win0_16.rect t)).set ↔ _
  rw [View.set_slice_whole, Rect.mem_set_unit]
  exact Iff.rfl

/-- Every index of the cell-state array lies in the block of the point whose band holds its row. -/
theorem cover16 (i : S16384x512.Idx) :
    ∃ t : Fin cfg0.N, (cfg0.win 16).flush t = true ∧ i ∈ ((cfg0.win 16).blk t).view.set := by
  have hi0 : (i 0).val < 16384 := (i 0).isLt
  have hi1 : (i 1).val < 512 := (i 1).isLt
  obtain ⟨t, ht⟩ := idx_onto ⟨(i 0).val / 512, by omega⟩
  have ht' : win0_15.index t (0 : Fin 2) = (i 0).val / 512 := ht
  obtain ⟨_, e1, e2, e3, _⟩ := idx_rows t
  refine ⟨t, flush0_16 t, ?_⟩
  rw [mem_blk16]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 512 ≤ (i 1).val ∧ (i 1).val < win0_16.index t (1 : Fin 2) * 512 + 512; omega

/-- THE CELL-STATE ARRAY after the run is `cellNext` of the argument arrays. -/
theorem final16 (c : Dev nD) : (dats m 0 c).arrAt 16 cfg0.N = (cellNext (arr0 m c) (arr1 m c) (arr2 m c) (arr3 m c) (arr4 m c) (arr5 m c) (arr6 m c) (arr7 m c) (arr8 m c) (arr9 m c) (arr10 m c) (arr11 m c)) :=
  (dats m 0 c).arrAt_eq_of_cover 16 _ (fun t _ => flushed16_eq m c t) cover16

/-! ## The run, read -/

/-- The kernel's run with both result arrays named: the new hidden state and the new cell state of the argument
    arrays as launched, the arguments unchanged. -/
theorem run : θ_run defs (onTc (τ := τ) (main (F := Ideal))) ⟨m, fun _ => 0, ρ⟩ fun r => ∀ c : Dev nD,
      r.2.mem ((c : Thread nD τ).loc main_v0_0) = hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v0_1) = cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c), (h c).2.2⟩)
    (Cert.KernelIdeal.Value.run_blocks m ρ)

end Cert.KernelIdeal.CellArray

end
-- ==== Proof.RefCell.lean ====
/-
  The reference program's two results are the cell update and the hidden update of `Proof/CellSpec.lean`.

  The reference lays the four gates' input weights side by side into one [512, 2048] matrix, likewise the recurrent
  weights and (end to end) the biases, forms `z = (x · W + h · U) + b` over all 2048 columns at once and cuts `z`
  into four bands of 512 columns. Column `g · 512 + j` of a concatenation is column `j` of piece `g`, so band `g` of
  `z` at `(r, j)` is gate `g`'s own pre-activation `(Σₖ x[r,k]·w_g[k,j] + Σₖ h[r,k]·u_g[k,j]) + b_g[j]`: no sum is
  regrouped. The gates then go through `1 / (1 + e^(-z))` spelt with the host's operations, which is the logistic
  function, and through the host's hyperbolic tangent, the same function as the kernel's.
  Each stage is read at an index by the generated lemmas of Gen/ReferenceIdeal/Read.lean; the three concatenations, which
  that module leaves unread, by `concat4_cols` and `concat4_vec`.
-/
import proofs.«128497_j21234318311760_1_alg».proof.Proof.Gen.ReferenceIdeal.Read
import proofs.«128497_j21234318311760_1_alg».proof.Proof.CellSpec

noncomputable section

namespace Cert.ReferenceIdeal.CellValue

open Cert.ReferenceIdeal Cert.ReferenceIdeal.Gen Cert.ReferenceIdeal.Read Cert.LstmCell
open Idealize.ShloMosaic Idealize.ShloMosaic.ValueIdx

/-! ## One band of the fused pre-activation -/

/-- The fused pre-activation at row `r` and column `g · 512 + j` is gate `g`'s pre-activation at `(r, j)`, for the
    gate whose weights and bias are the `g`-th pieces of the three concatenations. -/
theorem fused_band (x0 x1 : (⟨S16384x512, .f32⟩ : BufTy).Contents (Elt Ideal)) (x3 x4 : (⟨S512x512, .f32⟩ : BufTy).Contents (Elt Ideal)) (x5 : (⟨S512, .f32⟩ : BufTy).Contents (Elt Ideal)) (x6 x7 : (⟨S512x512, .f32⟩ : BufTy).Contents (Elt Ideal)) (x8 : (⟨S512, .f32⟩ : BufTy).Contents (Elt Ideal)) (x9 x10 : (⟨S512x512, .f32⟩ : BufTy).Contents (Elt Ideal)) (x11 : (⟨S512, .f32⟩ : BufTy).Contents (Elt Ideal)) (x12 x13 : (⟨S512x512, .f32⟩ : BufTy).Contents (Elt Ideal)) (x14 : (⟨S512, .f32⟩ : BufTy).Contents (Elt Ideal))
    (r : Fin 16384) (g : Fin 4) (j : Fin 512) (w u : SMat.Idx → EReal) (b : SVec.Idx → EReal)
    (hw : ![x3, x6, x9, x12] g = w) (hu : ![x4, x7, x10, x13] g = u) (hb : ![x5, x8, x11, x14] g = b) :
    val_main_v8 (F := Ideal) x0 x1 x3 x4 x5 x6 x7 x8 x9 x10 x11 x12 x13 x14 (ix2 r (bandCol g j)) = pre x0 x1 w u b r j := by
  have el3 : ∀ k : Fin 512, lidx_main_v3 (ix2 r (bandCol g j)) k = ix2 r k := fun k =>
    funext fun a => Fin.ext (by match a with | ⟨0, _⟩ => rfl | ⟨1, _⟩ => rfl)
  have er3 : ∀ k : Fin 512, ridx_main_v3 (ix2 r (bandCol g j)) k = ix2 k (bandCol g j) := fun k =>
    funext fun a => Fin.ext (by match a with | ⟨0, _⟩ => rfl | ⟨1, _⟩ => rfl)
  have el4 : ∀ k : Fin 512, lidx_main_v4 (ix2 r (bandCol g j)) k = ix2 r k := fun k =>
    funext fun a => Fin.ext (by match a with | ⟨0, _⟩ => rfl | ⟨1, _⟩ => rfl)
  have er4 : ∀ k : Fin 512, ridx_main_v4 (ix2 r (bandCol g j)) k = ix2 k (bandCol g j) := fun k =>
    funext fun a => Fin.ext (by match a with | ⟨0, _⟩ => rfl | ⟨1, _⟩ => rfl)
  have eb : idx_main_v6 (idx_main_v7 (ix2 r (bandCol g j))) = ix1 (bandCol g j) :=
    funext fun a => Fin.ext (by match a with | ⟨0, _⟩ => rfl)
  have cw : ∀ k : Fin 512, val_main_v0 (F := Ideal) x3 x6 x9 x12 (ix2 k (bandCol g j)) = w (ix2 k j) := fun k =>
    (concat4_cols x3 x6 x9 x12 concatenates_S512x512_S512x512_S512x512_S512x512_S512x2048_d1 k g j).trans (by rw [hw])
  have cu : ∀ k : Fin 512, val_main_v1 (F := Ideal) x4 x7 x10 x13 (ix2 k (bandCol g j)) = u (ix2 k j) := fun k =>
    (concat4_cols x4 x7 x10 x13 concatenates_S512x512_S512x512_S512x512_S512x512_S512x2048_d1 k g j).trans (by rw [hu])
  have cb : val_main_v2 (F := Ideal) x5 x8 x11 x14 (ix1 (bandCol g j)) = b (ix1 j) :=
    (concat4_vec x5 x8 x11 x14 concatenates_S512_S512_S512_S512_S2048_d0 g j).trans (by rw [hb])
  rw [val_main_v8_apply, val_main_v5_apply, val_main_v3_apply, val_main_v4_apply, val_main_v7_apply, val_main_v6_apply, eb, cb]
  unfold pre
  simp only [el3, er3, el4, er4, cw, cu]
  rfl

/-! ## The two results -/

/-- THE REFERENCE'S NEW CELL STATE is `cellNext` of its arguments. -/
theorem cell_eq (x0 x1 x2 : (⟨S16384x512, .f32⟩ : BufTy).Contents (Elt Ideal)) (x3 x4 : (⟨S512x512, .f32⟩ : BufTy).Contents (Elt Ideal)) (x5 : (⟨S512, .f32⟩ : BufTy).Contents (Elt Ideal)) (x6 x7 : (⟨S512x512, .f32⟩ : BufTy).Contents (Elt Ideal)) (x8 : (⟨S512, .f32⟩ : BufTy).Contents (Elt Ideal)) (x9 x10 : (⟨S512x512, .f32⟩ : BufTy).Contents (Elt Ideal)) (x11 : (⟨S512, .f32⟩ : BufTy).Contents (Elt Ideal)) (x12 x13 : (⟨S512x512, .f32⟩ : BufTy).Contents (Elt Ideal)) (x14 : (⟨S512, .f32⟩ : BufTy).Contents (Elt Ideal)) :
    val_main_v28 (F := Ideal) x0 x1 x2 x3 x4 x5 x6 x7 x8 x9 x10 x11 x12 x13 x14 = cellNext x0 x1 x2 x3 x4 x5 x6 x7 x8 x9 x10 x11 := by
  funext i
  obtain ⟨r, j, rfl⟩ : ∃ (r : Fin 16384) (j : Fin 512), i = ix2 r j := ⟨i 0, i 1, eq_ix2 i⟩
  have hi : idx_main_v9 (ix2 r j) = ix2 r (bandCol 0 j) :=
    funext fun a => Fin.ext (by match a with | ⟨0, _⟩ => rfl | ⟨1, _⟩ => show j.val = 0 * 512 + j.val; omega)
  have hf : idx_main_v10 (ix2 r j) = ix2 r (bandCol 1 j) :=
    funext fun a => Fin.ext (by match a with | ⟨0, _⟩ => rfl | ⟨1, _⟩ => show 512 + j.val = 1 * 512 + j.val; omega)
  have hc : idx_main_v11 (ix2 r j) = ix2 r (bandCol 2 j) :=
    funext fun a => Fin.ext (by match a with | ⟨0, _⟩ => rfl | ⟨1, _⟩ => show 1024 + j.val = 2 * 512 + j.val; omega)
  rw [val_main_v28_apply, val_main_v26_apply, val_main_v24_apply, val_main_v23_apply, val_main_cst_2_apply, val_main_v22_apply,
    val_main_v21_apply, val_main_cst_1_apply, val_main_v20_apply, val_main_v19_apply, val_main_v10_apply,
    val_main_v27_apply, val_main_v18_apply, val_main_v17_apply, val_main_cst_0_apply, val_main_v16_apply,
    val_main_v15_apply, val_main_cst_apply, val_main_v14_apply, val_main_v13_apply, val_main_v9_apply,
    val_main_v25_apply, val_main_v11_apply, hi, hf, hc,
    fused_band x0 x1 x3 x4 x5 x6 x7 x8 x9 x10 x11 x12 x13 x14 r 0 j x3 x4 x5 rfl rfl rfl,
    fused_band x0 x1 x3 x4 x5 x6 x7 x8 x9 x10 x11 x12 x13 x14 r 1 j x6 x7 x8 rfl rfl rfl,
    fused_band x0 x1 x3 x4 x5 x6 x7 x8 x9 x10 x11 x12 x13 x14 r 2 j x9 x10 x11 rfl rfl rfl]
  simp only [Ideal.hostDivf_def, Ideal.hostNegf_def, Ideal.negf_def, Ideal.hostUnary_exp_def, Ideal.hostUnary_tanh_def,
    Ideal.addf_def, Ideal.mulf_def, Ideal.ofBits_def, logistic_spelt]
  rfl

/-- THE REFERENCE'S NEW HIDDEN STATE is `hiddenNext` of its arguments. -/
theorem hidden_eq (x0 x1 x2 : (⟨S16384x512, .f32⟩ : BufTy).Contents (Elt Ideal)) (x3 x4 : (⟨S512x512, .f32⟩ : BufTy).Contents (Elt Ideal)) (x5 : (⟨S512, .f32⟩ : BufTy).Contents (Elt Ideal)) (x6 x7 : (⟨S512x512, .f32⟩ : BufTy).Contents (Elt Ideal)) (x8 : (⟨S512, .f32⟩ : BufTy).Contents (Elt Ideal)) (x9 x10 : (⟨S512x512, .f32⟩ : BufTy).Contents (Elt Ideal)) (x11 : (⟨S512, .f32⟩ : BufTy).Contents (Elt Ideal)) (x12 x13 : (⟨S512x512, .f32⟩ : BufTy).Contents (Elt Ideal)) (x14 : (⟨S512, .f32⟩ : BufTy).Contents (Elt Ideal)) :
    val_main_v36 (F := Ideal) x0 x1 x2 x3 x4 x5 x6 x7 x8 x9 x10 x11 x12 x13 x14 = hiddenNext x0 x1 x2 x3 x4 x5 x6 x7 x8 x9 x10 x11 x12 x13 x14 := by
  funext i
  obtain ⟨r, j, rfl⟩ : ∃ (r : Fin 16384) (j : Fin 512), i = ix2 r j := ⟨i 0, i 1, eq_ix2 i⟩
  have ho : idx_main_v12 (ix2 r j) = ix2 r (bandCol 3 j) :=
    funext fun a => Fin.ext (by match a with | ⟨0, _⟩ => rfl | ⟨1, _⟩ => show 1536 + j.val = 3 * 512 + j.val; omega)
  rw [val_main_v36_apply, val_main_v35_apply, cell_eq, val_main_v34_apply, val_main_v33_apply, val_main_cst_4_apply,
    val_main_v32_apply, val_main_v31_apply, val_main_cst_3_apply, val_main_v30_apply, val_main_v29_apply,
    val_main_v12_apply, ho, fused_band x0 x1 x3 x4 x5 x6 x7 x8 x9 x10 x11 x12 x13 x14 r 3 j x12 x13 x14 rfl rfl rfl]
  simp only [Ideal.hostDivf_def, Ideal.hostNegf_def, Ideal.negf_def, Ideal.hostUnary_exp_def, Ideal.hostUnary_tanh_def,
    Ideal.addf_def, Ideal.mulf_def, Ideal.ofBits_def, logistic_spelt]
  rfl

end Cert.ReferenceIdeal.CellValue

end
-- ==== Proof.lean ====
/-
  A single-step LSTM cell, tiled over the batch, against the same cell written with fused weight matrices.

  THE KERNEL walks 32 tiles of 512 batch rows. On a tile it forms, for each of the four gates g ∈ {i, f, c, o},
      z_g = (x · w_g + h · u_g) + b_g
  with its own pair of [512, 512] weight matrices (eight products in all, the operands cast to bf16 in front of the matrix
  unit), then
      c' = σ(z_f) · c + σ(z_i) · tanh(z_c),        h' = σ(z_o) · tanh(c'),
  and stores h' and c' to the tile's rows of the two results.
  THE REFERENCE lays the four input-weight matrices side by side into one [512, 2048] matrix W, likewise the recurrent
  weights into U and the biases end to end into b, forms z = (x · W + h · U) + b once over all 2048 columns, cuts z into
  four bands of 512 columns, and applies the same two formulas, its σ spelt as 1 / (1 + e^(-z)).

  On the extended reals the two are one function, with no appeal to finiteness of the inputs:
  * a cast between float formats is the identity, and both the matrix unit's product into a zero accumulator and the
    host's dot product are the plain sum Σₖ a[r, k] · b[k, j];
  * column g · 512 + j of a concatenation along the columns is column j of piece g, so band g of z is exactly z_g:
    the same two sums and the same bias, added in the same order — no sum is split, merged or reordered;
  * σ is one function (the logistic function is DEFINED as that quotient), and tanh is the same function on the host and
    in the kernel.
  Proof/CellSpec.lean states the cell as one function of the fifteen arrays (`hiddenNext`, `cellNext`);
  Proof/GateBlock.lean and Proof/KernelArray.lean show the kernel's run leaves exactly those in its two results
  (tile by tile, then over the 32 row bands that tile the arrays); Proof/RefCell.lean shows the reference's two results are
  the same two functions. Here the two runs are set side by side from memories that agree on the arguments.
  The ideal pass rewrote nothing in this kernel, so there is nothing to preserve beyond the program's own text.
-/
import proofs.«128497_j21234318311760_1_alg».proof.Defs
import proofs.«128497_j21234318311760_1_alg».proof.Proof.Gen.Kernel
import proofs.«128497_j21234318311760_1_alg».proof.Proof.Gen.Kernel.Skeleton
import proofs.«128497_j21234318311760_1_alg».proof.Proof.Gen.Kernel.Launch
import proofs.«128497_j21234318311760_1_alg».proof.Proof.Gen.Kernel.Points
import proofs.«128497_j21234318311760_1_alg».proof.Proof.Gen.Kernel.Frame
import proofs.«128497_j21234318311760_1_alg».proof.Proof.Gen.KernelIdeal
import proofs.«128497_j21234318311760_1_alg».proof.Proof.Gen.KernelIdeal.Skeleton
import proofs.«128497_j21234318311760_1_alg».proof.Proof.Gen.KernelIdeal.Launch
import proofs.«128497_j21234318311760_1_alg».proof.Proof.Gen.KernelIdeal.Points
import proofs.«128497_j21234318311760_1_alg».proof.Proof.Gen.KernelIdeal.Frame
import proofs.«128497_j21234318311760_1_alg».proof.Proof.Gen.ReferenceIdeal
import proofs.«128497_j21234318311760_1_alg».proof.Proof.Gen.Pre_finite_inputs
import proofs.«128497_j21234318311760_1_alg».proof.Proof.Gen.KernelIdeal.Value
import proofs.«128497_j21234318311760_1_alg».proof.Proof.Gen.ReferenceIdeal.Run
import proofs.«128497_j21234318311760_1_alg».proof.Proof.Gen.ReferenceIdeal.Read
import proofs.«128497_j21234318311760_1_alg».proof.Proof.CellSpec
import proofs.«128497_j21234318311760_1_alg».proof.Proof.GateBlock
import proofs.«128497_j21234318311760_1_alg».proof.Proof.KernelArray
import proofs.«128497_j21234318311760_1_alg».proof.Proof.RefCell
import Idealize.ShloMosaic.Adequacy
import Idealize.ShloMosaic.Init

noncomputable section

namespace Cert.Proof

open Idealize.ShloMosaic Idealize.ShloMosaic.TcCoe Idealize.SL.Sem

/-- The word-level kernel terminates without a fault and leaves its fifteen arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with what it says of the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- Both programs end with the new hidden state and the new cell state of the shared arguments: the kernel's two
    result arrays by the tile-by-tile reading of its run, the reference's by reading its fused pre-activation band by
    band. -/
theorem algebraic : Cert.algebraic_KernelIdeal_ReferenceIdeal := by
  intro m ρ m' ρ' _ hagree
  refine ⟨_, _, Cert.KernelIdeal.CellArray.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v36_eq, Cert.ReferenceIdeal.CellValue.hidden_eq, a0, a1, a2, a3, a4, a5, a6, a7, a8, a9, a10, a11, a12, a13, a14]
  · obtain ⟨a0, a1, a2, a3, a4, a5, a6, a7, a8, a9, a10, a11, a12, a13, a14⟩ := hagree c
    rw [Cert.ReferenceIdeal.Read.val_main_v28_eq, Cert.ReferenceIdeal.CellValue.cell_eq, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
